-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S4x4096x128 .f32) (main_arg1 : FVec F S4x4096x128 .f32) (main_arg2 : FVec F S128x128 .f32) (main_arg3 : FVec F S128x128 .f32) (main_arg4 : FVec F S128x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S4x4096x128 : Shape := ⟨3, ![4, 4096, 128]⟩
abbrev S128x128 : Shape := ⟨2, ![128, 128]⟩
abbrev S1x4096x128 : Shape := ⟨3, ![1, 4096, 128]⟩
abbrev S4096x128 : Shape := ⟨2, ![4096, 128]⟩
abbrev S1x1024x128 : Shape := ⟨3, ![1, 1024, 128]⟩
abbrev S1024x128 : Shape := ⟨2, ![1024, 128]⟩
abbrev S128x4096 : Shape := ⟨2, ![128, 4096]⟩
abbrev S1024x4096 : Shape := ⟨2, ![1024, 4096]⟩

abbrev nBuf : Space → Nat
  | .hbm => 9
  | .vmem => 21
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S4x4096x128, .bf16⟩
  | .hbm, ⟨6, _⟩ => ⟨S4x4096x128, .bf16⟩
  | .hbm, ⟨7, _⟩ => ⟨S4x4096x128, .bf16⟩
  | .hbm, ⟨8, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x4096x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x1024x128, .f32⟩
  | .local _ .vmem, ⟨20, _⟩ => ⟨S1x1024x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S4096x128_S1x4096x128 : S4096x128.ShapeCasts S1x4096x128
  packedbf16_S1x4096x128_S1x4096x128_0_0_0 : (Rect.unit (s := S1x4096x128) ![0, 0, 0] S1x4096x128.size inb_S1x4096x128_S1x4096x128_0_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S4096x128_p1_0_S128x4096 : S4096x128.Transposes [1, 0] S128x4096
  shapeCasts_S1024x128_S1x1024x128 : S1024x128.ShapeCasts S1x1024x128
  dot_S4096x128_S128x128_S4096x128_1_0_0_1_n_n_wf : DotDims.WF S4096x128 S128x128 S4096x128 [1] [0] [0] [1] [] []
  dot_S1024x128_S128x4096_S1024x4096_1_0_0_1_n_n_wf : DotDims.WF S1024x128 S128x4096 S1024x4096 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S4x4096x128.size a
  hwx0_5 : ∀ i : grid0.Coords, EltTy.bits .bf16 = 32 ∨ (Rect.block (s := S4x4096x128) S1x4096x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x128.size a ≤ S4x4096x128.size a
  hwx0_6 : ∀ i : grid0.Coords, EltTy.bits .bf16 = 32 ∨ (Rect.block (s := S4x4096x128) S1x4096x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x128.size a ≤ S4x4096x128.size a
  hwx0_7 : ∀ i : grid0.Coords, EltTy.bits .bf16 = 32 ∨ (Rect.block (s := S4x4096x128) S1x4096x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .bf16 = 32 ∨ (Rect.block (s := S4x4096x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .bf16 = 32 ∨ (Rect.block (s := S4x4096x128) S1x4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S4x4096x128.size a
  hwx1_2 : ∀ i : grid1.Coords, EltTy.bits .bf16 = 32 ∨ (Rect.block (s := S4x4096x128) S1x4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x4096x128.size a
  hwx1_3 : ∀ i : grid1.Coords, EltTy.bits .f32 = 32 ∨ (Rect.block (s := S4x4096x128) S1x1024x128.size (cc1_transform_3 i) (hinb1_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x128_S128x4096_S1024x4096_1_0_0_1_n_n : DotDims S1024x128 S128x4096 S1024x4096 where
  lhsContracting := [1]
  rhsContracting := [0]
  lhsNonContracting := [0]
  rhsNonContracting := [1]
  lhsBatch := []
  rhsBatch := []
  wf := dot_S1024x128_S128x4096_S1024x4096_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg1) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x4096x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1x4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x128 : Shape := ⟨3, ![4, 4096, 128]⟩
abbrev S128x128 : Shape := ⟨2, ![128, 128]⟩
abbrev S4x4096x4096 : Shape := ⟨3, ![4, 4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x128_S128x128_S4x4096x128_2_1_01_0_n_n_wf : DotDims.WF S4x4096x128 S128x128 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Spec.lean ====
/-
  The layer both programs compute, as one function of the five argument arrays over the extended reals.

  A token array has 4 batches of 4096 positions of 128 features; a weight matrix is 128 by 128 and acts on the
  feature axis from the right, transposed: `proj x w` at `(b, s, e)` is the sum over `d` of `x (b, s, d) · w (e, d)`.
  The mixing step pairs every query position `s` with every key position `t` of the same batch: the score is the
  inner product of the two feature rows times one fixed scale, and the result at `(b, s, e)` is the sum over `t` of
  score times `v (b, t, e)`. There is no normalisation between the two sums, so the result is a plain nested sum:
  nothing here needs a distributive law, and nothing needs the entries to be finite.
-/
import Idealize.ShloMosaic.PureOps.Ideal.Laws
import Idealize.ShloMosaic.Lib.ValueIdx

noncomputable section

namespace Cert.LinAttn

open Idealize.ShloMosaic Idealize.ShloMosaic.ValueIdx

/-- Token arrays: batch, position, feature. -/
abbrev Tok : Shape := ⟨3, ![4, 4096, 128]⟩
/-- Weight matrices: output feature, input feature. -/
abbrev Wgt : Shape := ⟨2, ![128, 128]⟩

/-- One entry of a projection: row `(b, s)` of `x` against row `e` of `w`. -/
def projAt (x : Tok.Idx → EReal) (w : Wgt.Idx → EReal) (b : Fin 4) (s : Fin 4096) (e : Fin 128) : EReal :=
  ∑ d : Fin 128, x (ix3 b s d) * w (ix2 e d)

/-- The projection `x · wᵀ` on the feature axis. -/
def proj (x : Tok.Idx → EReal) (w : Wgt.Idx → EReal) : Tok.Idx → EReal :=
  fun i => projAt x w (i 0) (i 1) (i 2)

theorem proj_ix3 (x : Tok.Idx → EReal) (w : Wgt.Idx → EReal) (b : Fin 4) (s : Fin 4096) (e : Fin 128) :
    proj x w (ix3 b s e) = projAt x w b s e := rfl

/-- The one scale both programs multiply the scores by: the single-precision number nearest `128^(-1/2)`,
    the same bit pattern in both, so its value is never needed. -/
def scale : EReal := Ideal.ofBits .f32 0x3DB504F3#32

/-- The score of query position `s` against key position `t` in batch `b`, scaled. -/
def scoreAt (q k : Tok.Idx → EReal) (b : Fin 4) (s t : Fin 4096) : EReal :=
  (∑ d : Fin 128, q (ix3 b s d) * k (ix3 b t d)) * scale

/-- One entry of the mixing step. -/
def mixAt (q k v : Tok.Idx → EReal) (b : Fin 4) (s : Fin 4096) (e : Fin 128) : EReal :=
  ∑ t : Fin 4096, scoreAt q k b s t * v (ix3 b t e)

/-- The mixing step `(q · kᵀ · scale) · v`, batch by batch. -/
def mix (q k v : Tok.Idx → EReal) : Tok.Idx → EReal :=
  fun i => mixAt q k v (i 0) (i 1) (i 2)

theorem mix_ix3 (q k v : Tok.Idx → EReal) (b : Fin 4) (s : Fin 4096) (e : Fin 128) :
    mix q k v (ix3 b s e) = mixAt q k v b s e := rfl

/-- The whole layer: queries from `x`, keys and values from `ctx`. -/
def layer (ctx x : Tok.Idx → EReal) (wq wk wv : Wgt.Idx → EReal) : Tok.Idx → EReal :=
  mix (proj x wq) (proj ctx wk) (proj ctx wv)

end Cert.LinAttn

end
-- ==== Proof.Payload.lean ====
/-
  What each kernel body stores, read at one entry, at the ideal values.

  The projection body loads a `[1, 4096, 128]` block of tokens and a `128 × 128` weight matrix, drops the unit axis,
  multiplies the block by the transposed matrix into a zero accumulator and puts the unit axis back; the changes of
  float format in between are the identity at the ideal values. So the stored entry `(u, s, e)` is the sum over `d`
  of `block (0, s, d) · w (e, d)`. The three stores of the body are three instances of this one reading.

  The mixing body loads a `[1, 1024, 128]` block of queries and the whole `[1, 4096, 128]` key and value blocks of the
  batch: scores are queries times transposed keys, scaled entry by entry, then multiplied by the values. The stored
  entry `(u, r, e)` is the sum over `t` of `(Σ_d q (0, r, d) · k (0, t, d)) · scale · v (0, t, e)`.
-/
import proofs.«151720_j10204842295864_1_alg».proof.Proof.Gen.KernelIdeal.Skeleton
import proofs.«151720_j10204842295864_1_alg».proof.Proof.LibDot
import proofs.«151720_j10204842295864_1_alg».proof.Proof.Spec
import Idealize.ShloMosaic.Lib.ValueLayout
import Idealize.ShloMosaic.Lib.ValueIdx

noncomputable section

namespace Cert.KernelIdeal.Body

open Cert.KernelIdeal Cert.KernelIdeal.Gen Idealize.ShloMosaic Idealize.ShloMosaic.ValueIdx

/-- A token block times a transposed weight matrix, at an entry: the shared reading of the three projections. -/
theorem projBlock_apply (x0 : Vec Ideal S1x4096x128 .f32) (w : Vec Ideal S128x128 .f32) (s : Fin 4096) (e : Fin 128) :
    matmul (F := Ideal) dot_S4096x128_S128x128_S4096x128_1_0_0_1_n_n none
        (truncf .bf16 (shapeCast S4096x128 x0 shapeCasts_S1x4096x128_S4096x128) bitsLt_bf16_f32)
        (transpose S128x128 [1, 0] (truncf .bf16 w bitsLt_bf16_f32) transposes_S128x128_p1_0_S128x128)
        (constant S4096x128 .f32 0x00000000#32) (ix2 s e)
      = ∑ d : Fin 128, x0 (ix3 (0 : Fin 1) s d) * w (ix2 e d) := by
  refine (Cert.GNN.matmul_plain_zero_apply none _ _ s e).trans ?_
  refine Finset.sum_congr rfl fun d _ => ?_
  exact congrArg₂ (· * ·) (shapeCast_1ab_ab_apply _ _ s d) (transpose_ix2_apply _ _ d e)

theorem pay2_apply (x0 : Vec Ideal S1x4096x128 .f32) (w : Vec Ideal S128x128 .f32) (u : Fin 1) (s : Fin 4096) (e : Fin 128) :
    k0_pay2 (F := Ideal) x0 w (ix3 u s e) = ∑ d : Fin 128, x0 (ix3 (0 : Fin 1) s d) * w (ix2 e d) := by
  unfold k0_pay2
  refine (shapeCast_ab_1ab_apply _ _ u s e).trans ?_
  exact projBlock_apply x0 w s e

theorem pay3_apply (x0 : Vec Ideal S1x4096x128 .f32) (w : Vec Ideal S128x128 .f32) (u : Fin 1) (s : Fin 4096) (e : Fin 128) :
    k0_pay3 (F := Ideal) x0 w (ix3 u s e) = ∑ d : Fin 128, x0 (ix3 (0 : Fin 1) s d) * w (ix2 e d) := by
  unfold k0_pay3 k0_pay1
  refine (shapeCast_ab_1ab_apply _ _ u s e).trans ?_
  exact projBlock_apply x0 w s e

theorem pay4_apply (x0 : Vec Ideal S1x4096x128 .f32) (w : Vec Ideal S128x128 .f32) (u : Fin 1) (s : Fin 4096) (e : Fin 128) :
    k0_pay4 (F := Ideal) x0 w (ix3 u s e) = ∑ d : Fin 128, x0 (ix3 (0 : Fin 1) s d) * w (ix2 e d) := by
  unfold k0_pay4 k0_pay1
  refine (shapeCast_ab_1ab_apply _ _ u s e).trans ?_
  exact projBlock_apply x0 w s e

/-- The mixing body's store at an entry. -/
theorem mixpay_apply (q0 : Vec Ideal S1x1024x128 .bf16) (k0 v0 : Vec Ideal S1x4096x128 .bf16) (u : Fin 1) (r : Fin 1024) (e : Fin 128) :
    k1_pay1 (F := Ideal) q0 k0 v0 (ix3 u r e)
      = ∑ t : Fin 4096, ((∑ d : Fin 128, q0 (ix3 (0 : Fin 1) r d) * k0 (ix3 (0 : Fin 1) t d)) * Cert.LinAttn.scale) * v0 (ix3 (0 : Fin 1) t e) := by
  unfold k1_pay1
  refine (shapeCast_ab_1ab_apply _ _ u r e).trans ?_
  refine (Cert.GNN.matmul_plain_zero_apply none _ _ r e).trans ?_
  refine Finset.sum_congr rfl fun t _ => ?_
  refine congrArg₂ (· * ·) ?_ (shapeCast_1ab_ab_apply _ _ t e)
  show (matmul (F := Ideal) dot_S1024x128_S128x4096_S1024x4096_1_0_0_1_n_n none _ _ (constant S1024x4096 .f32 0x00000000#32)) (ix2 r t) * Cert.LinAttn.scale = _
  refine congrArg (· * Cert.LinAttn.scale) ?_
  refine (Cert.GNN.matmul_plain_zero_apply none _ _ r t).trans ?_
  refine Finset.sum_congr rfl fun d _ => ?_
  exact congrArg₂ (· * ·) (shapeCast_1ab_ab_apply _ _ r d)
    ((transpose_ix2_apply _ _ d t).trans (shapeCast_1ab_ab_apply _ _ t d))

end Cert.KernelIdeal.Body

end
-- ==== Proof.Region0.lean ====
/-
  The first region's three output arrays, whole, as functions of what the region finds in its input arrays.

  The grid has one point per batch. At point `t` each token window's block is batch `t` of its array (block index
  `(t, 0, 0)`, block extents `[1, 4096, 128]`), each weight window's block is the whole matrix, and each output
  window writes back batch `t` of its array. With the body's store read at an entry, what point `t` writes back is
  batch `t` of the projection of the whole arrays; the four batches tile each output array, so after the region
  each output array IS the projection.
-/
import proofs.«151720_j10204842295864_1_alg».proof.Proof.Gen.KernelIdeal.Frame
import proofs.«151720_j10204842295864_1_alg».proof.Proof.Payload
import Idealize.ShloMosaic.Lib.Pipeline.Value

set_option maxRecDepth 16384

noncomputable section

namespace Cert.KernelIdeal.Region0

open Cert.KernelIdeal Cert.KernelIdeal.Gen Cert.LinAttn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the four grid points: token and output windows sit at batch `t`, weight windows at the origin. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- One stored block against the projection of whole arrays: if the token block is batch `b` of `X` and the weight
    block is `Wm`, the body's sum at block entry `j` is the projection at the array index with batch `b` and `j`'s
    position and feature. -/
theorem block_eq (X : Tok.Idx → EReal) (Wm : Wgt.Idx → EReal)
    (x0 : Vec Ideal S1x4096x128 .f32) (w : Vec Ideal S128x128 .f32) (b : Fin 4)
    (hx : ∀ (s : Fin 4096) (d : Fin 128), x0 (ix3 (0 : Fin 1) s d) = X (ix3 b s d))
    (hw : ∀ (e d : Fin 128), w (ix2 e d) = Wm (ix2 e d))
    (pay : Vec Ideal S1x4096x128 .f32 → Vec Ideal S128x128 .f32 → FVec Ideal S1x4096x128 .bf16)
    (hpay : ∀ (u : Fin 1) (s : Fin 4096) (e : Fin 128), pay x0 w (ix3 u s e) = ∑ d : Fin 128, x0 (ix3 (0 : Fin 1) s d) * w (ix2 e d))
    (j : S1x4096x128.Idx) (i : Tok.Idx)
    (h0 : (i 0).val = b.val) (h1 : (i 1).val = (j 1).val) (h2 : (i 2).val = (j 2).val) :
    pay x0 w j = proj X Wm i := by
  obtain ⟨u, s, e, rfl⟩ : ∃ (u : Fin 1) (s : Fin 4096) (e : Fin 128), j = ix3 u s e := ⟨j 0, j 1, j 2, eq_ix3 j⟩
  have hi : i = ix3 b s e := by
    funext a; apply Fin.ext
    match a with
    | ⟨0, _⟩ => exact h0
    | ⟨1, _⟩ => exact h1
    | ⟨2, _⟩ => exact h2
  rw [hi, proj_ix3, hpay]
  unfold projAt
  exact Finset.sum_congr rfl fun d _ => by rw [hx, hw]

/-! ## Output window 5 -/

/-- What point `t` writes back through window 5 is batch `t` of the projection of the arrays the region finds. -/
theorem flushed5_eq (c : Dev nD) (t : Fin cfg0.N) :
    (dat0 V c).flushed 5 t = ((cfg0.win 5).blk t).view.read (Elt Ideal) (proj (V c main_arg1) (V c main_arg2)) := by
  show (cfg0.win 5).cut (grid0.coords t) ((dat0 V c).after 5 t) = _
  rw [after0_5]
  unfold out0_5
  rw [View.canon_unit_zero hz3]
  simp only [View.ld_unit_zero (S := S1x4096x128) hz3, View.ld_unit_zero (S := S128x128) hz2]
  obtain ⟨⟨a0, a1, a2⟩, -, ⟨b0, b1⟩, -, -, ⟨o0, o1, o2⟩, -, -⟩ := idx_facts t
  funext j
  show k0_pay2 (iblk0 V c 0 t) (iblk0 V c 2 t) j = proj (V c main_arg1) (V c main_arg2) (((cfg0.win 5).blk t).view.emb j)
  refine block_eq (V c main_arg1) (V c main_arg2) (iblk0 V c 0 t) (iblk0 V c 2 t) ⟨t.val, t.isLt⟩ (fun s d => ?_) (fun e d => ?_)
    k0_pay2 (fun u s e => Body.pay2_apply (iblk0 V c 0 t) (iblk0 V c 2 t) u s e) j _ ?_ ?_ ?_
  · show V c main_arg1 (((cfg0.win 0).blk t).view.emb (ix3 (0 : Fin 1) s d)) = V c main_arg1 (ix3 ⟨t.val, t.isLt⟩ s d)
    refine congrArg _ (funext fun a => Fin.ext ?_)
    match a with
    | ⟨0, _⟩ => show win0_0.index t (0 : Fin 3) * 1 + 1 * 0 = t.val; omega
    | ⟨1, _⟩ => show win0_0.index t (1 : Fin 3) * 4096 + 1 * s.val = s.val; omega
    | ⟨2, _⟩ => show win0_0.index t (2 : Fin 3) * 128 + 1 * d.val = d.val; omega
  · show V c main_arg2 (((cfg0.win 2).blk t).view.emb (ix2 e d)) = V c main_arg2 (ix2 e d)
    refine congrArg _ (funext fun a => Fin.ext ?_)
    match a with
    | ⟨0, _⟩ => show win0_2.index t (0 : Fin 2) * 128 + 1 * e.val = e.val; omega
    | ⟨1, _⟩ => show win0_2.index t (1 : Fin 2) * 128 + 1 * d.val = d.val; omega
  · show win0_5.index t (0 : Fin 3) * 1 + 1 * (j 0).val = t.val
    have hj : (j 0).val < 1 := (j 0).isLt
    omega
  · show win0_5.index t (1 : Fin 3) * 4096 + 1 * (j 1).val = (j 1).val; omega
  · show win0_5.index t (2 : Fin 3) * 128 + 1 * (j 2).val = (j 2).val; omega

/-- An index of the array is in point `t`'s block iff each coordinate is in the block's range on its axis. -/
theorem mem_blk5 (t : Fin cfg0.N) (i : S4x4096x128.Idx) :
    i ∈ ((cfg0.win 5).blk t).view.set ↔ ∀ a : Fin 3, win0_5.index t a * S1x4096x128.size a ≤ (i a).val ∧ (i a).val < win0_5.index t a * S1x4096x128.size a + S1x4096x128.size a := by
  show i ∈ ((View.whole main_v0_0).slice (win0_5.rect t)).set ↔ _
  rw [View.set_slice_whole, Rect.mem_set_unit]
  exact Iff.rfl

/-- Every index of the array lies in the block of the point of its batch. -/
theorem cover5 (i : S4x4096x128.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 128 := (i 2).isLt
  refine ⟨⟨(i 0).val, hi0⟩, flush0_5 _, ?_⟩
  rw [mem_blk5]
  obtain ⟨-, -, -, -, -, ⟨o0, o1, o2⟩, -, -⟩ := idx_facts ⟨(i 0).val, hi0⟩
  have o0' : win0_5.index ⟨(i 0).val, hi0⟩ (0 : Fin 3) = (i 0).val := o0
  intro a
  match a with
  | ⟨0, _⟩ => show win0_5.index ⟨(i 0).val, hi0⟩ (0 : Fin 3) * 1 ≤ (i 0).val ∧ (i 0).val < win0_5.index ⟨(i 0).val, hi0⟩ (0 : Fin 3) * 1 + 1; omega
  | ⟨1, _⟩ => show win0_5.index ⟨(i 0).val, hi0⟩ (1 : Fin 3) * 4096 ≤ (i 1).val ∧ (i 1).val < win0_5.index ⟨(i 0).val, hi0⟩ (1 : Fin 3) * 4096 + 4096; omega
  | ⟨2, _⟩ => show win0_5.index ⟨(i 0).val, hi0⟩ (2 : Fin 3) * 128 ≤ (i 2).val ∧ (i 2).val < win0_5.index ⟨(i 0).val, hi0⟩ (2 : Fin 3) * 128 + 128; omega

/-- After the region the window's array is the projection of the arrays the region found. -/
theorem final5 (c : Dev nD) :
    (dat0 V c).arrAt 5 cfg0.N = proj (V c main_arg1) (V c main_arg2) :=
  (dat0 V c).arrAt_eq_of_cover 5 _ (fun t _ => flushed5_eq V c t) cover5

/-! ## Output window 6 -/

/-- What point `t` writes back through window 6 is batch `t` of the projection of the arrays the region finds. -/
theorem flushed6_eq (c : Dev nD) (t : Fin cfg0.N) :
    (dat0 V c).flushed 6 t = ((cfg0.win 6).blk t).view.read (Elt Ideal) (proj (V c main_arg0) (V c main_arg3)) := by
  show (cfg0.win 6).cut (grid0.coords t) ((dat0 V c).after 6 t) = _
  rw [after0_6]
  unfold out0_6
  rw [View.canon_unit_zero hz3]
  simp only [View.ld_unit_zero (S := S1x4096x128) hz3, View.ld_unit_zero (S := S128x128) hz2]
  obtain ⟨-, ⟨a0, a1, a2⟩, -, ⟨b0, b1⟩, -, -, ⟨o0, o1, o2⟩, -⟩ := idx_facts t
  funext j
  show k0_pay3 (iblk0 V c 1 t) (iblk0 V c 3 t) j = proj (V c main_arg0) (V c main_arg3) (((cfg0.win 6).blk t).view.emb j)
  refine block_eq (V c main_arg0) (V c main_arg3) (iblk0 V c 1 t) (iblk0 V c 3 t) ⟨t.val, t.isLt⟩ (fun s d => ?_) (fun e d => ?_)
    k0_pay3 (fun u s e => Body.pay3_apply (iblk0 V c 1 t) (iblk0 V c 3 t) u s e) j _ ?_ ?_ ?_
  · show V c main_arg0 (((cfg0.win 1).blk t).view.emb (ix3 (0 : Fin 1) s d)) = V c main_arg0 (ix3 ⟨t.val, t.isLt⟩ s d)
    refine congrArg _ (funext fun a => Fin.ext ?_)
    match a with
    | ⟨0, _⟩ => show win0_1.index t (0 : Fin 3) * 1 + 1 * 0 = t.val; omega
    | ⟨1, _⟩ => show win0_1.index t (1 : Fin 3) * 4096 + 1 * s.val = s.val; omega
    | ⟨2, _⟩ => show win0_1.index t (2 : Fin 3) * 128 + 1 * d.val = d.val; omega
  · show V c main_arg3 (((cfg0.win 3).blk t).view.emb (ix2 e d)) = V c main_arg3 (ix2 e d)
    refine congrArg _ (funext fun a => Fin.ext ?_)
    match a with
    | ⟨0, _⟩ => show win0_3.index t (0 : Fin 2) * 128 + 1 * e.val = e.val; omega
    | ⟨1, _⟩ => show win0_3.index t (1 : Fin 2) * 128 + 1 * d.val = d.val; omega
  · show win0_6.index t (0 : Fin 3) * 1 + 1 * (j 0).val = t.val
    have hj : (j 0).val < 1 := (j 0).isLt
    omega
  · show win0_6.index t (1 : Fin 3) * 4096 + 1 * (j 1).val = (j 1).val; omega
  · show win0_6.index t (2 : Fin 3) * 128 + 1 * (j 2).val = (j 2).val; omega

/-- An index of the array is in point `t`'s block iff each coordinate is in the block's range on its axis. -/
theorem mem_blk6 (t : Fin cfg0.N) (i : S4x4096x128.Idx) :
    i ∈ ((cfg0.win 6).blk t).view.set ↔ ∀ a : Fin 3, win0_6.index t a * S1x4096x128.size a ≤ (i a).val ∧ (i a).val < win0_6.index t a * S1x4096x128.size a + S1x4096x128.size a := by
  show i ∈ ((View.whole main_v0_1).slice (win0_6.rect t)).set ↔ _
  rw [View.set_slice_whole, Rect.mem_set_unit]
  exact Iff.rfl

/-- Every index of the array lies in the block of the point of its batch. -/
theorem cover6 (i : S4x4096x128.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 128 := (i 2).isLt
  refine ⟨⟨(i 0).val, hi0⟩, flush0_6 _, ?_⟩
  rw [mem_blk6]
  obtain ⟨-, -, -, -, -, -, ⟨o0, o1, o2⟩, -⟩ := idx_facts ⟨(i 0).val, hi0⟩
  have o0' : win0_6.index ⟨(i 0).val, hi0⟩ (0 : Fin 3) = (i 0).val := o0
  intro a
  match a with
  | ⟨0, _⟩ => show win0_6.index ⟨(i 0).val, hi0⟩ (0 : Fin 3) * 1 ≤ (i 0).val ∧ (i 0).val < win0_6.index ⟨(i 0).val, hi0⟩ (0 : Fin 3) * 1 + 1; omega
  | ⟨1, _⟩ => show win0_6.index ⟨(i 0).val, hi0⟩ (1 : Fin 3) * 4096 ≤ (i 1).val ∧ (i 1).val < win0_6.index ⟨(i 0).val, hi0⟩ (1 : Fin 3) * 4096 + 4096; omega
  | ⟨2, _⟩ => show win0_6.index ⟨(i 0).val, hi0⟩ (2 : Fin 3) * 128 ≤ (i 2).val ∧ (i 2).val < win0_6.index ⟨(i 0).val, hi0⟩ (2 : Fin 3) * 128 + 128; omega

/-- After the region the window's array is the projection of the arrays the region found. -/
theorem final6 (c : Dev nD) :
    (dat0 V c).arrAt 6 cfg0.N = proj (V c main_arg0) (V c main_arg3) :=
  (dat0 V c).arrAt_eq_of_cover 6 _ (fun t _ => flushed6_eq V c t) cover6

/-! ## Output window 7 -/

/-- What point `t` writes back through window 7 is batch `t` of the projection of the arrays the region finds. -/
theorem flushed7_eq (c : Dev nD) (t : Fin cfg0.N) :
    (dat0 V c).flushed 7 t = ((cfg0.win 7).blk t).view.read (Elt Ideal) (proj (V c main_arg0) (V c main_arg4)) := by
  show (cfg0.win 7).cut (grid0.coords t) ((dat0 V c).after 7 t) = _
  rw [after0_7]
  unfold out0_7
  rw [View.canon_unit_zero hz3]
  simp only [View.ld_unit_zero (S := S1x4096x128) hz3, View.ld_unit_zero (S := S128x128) hz2]
  obtain ⟨-, ⟨a0, a1, a2⟩, -, -, ⟨b0, b1⟩, -, -, ⟨o0, o1, o2⟩⟩ := idx_facts t
  funext j
  show k0_pay4 (iblk0 V c 1 t) (iblk0 V c 4 t) j = proj (V c main_arg0) (V c main_arg4) (((cfg0.win 7).blk t).view.emb j)
  refine block_eq (V c main_arg0) (V c main_arg4) (iblk0 V c 1 t) (iblk0 V c 4 t) ⟨t.val, t.isLt⟩ (fun s d => ?_) (fun e d => ?_)
    k0_pay4 (fun u s e => Body.pay4_apply (iblk0 V c 1 t) (iblk0 V c 4 t) u s e) j _ ?_ ?_ ?_
  · show V c main_arg0 (((cfg0.win 1).blk t).view.emb (ix3 (0 : Fin 1) s d)) = V c main_arg0 (ix3 ⟨t.val, t.isLt⟩ s d)
    refine congrArg _ (funext fun a => Fin.ext ?_)
    match a with
    | ⟨0, _⟩ => show win0_1.index t (0 : Fin 3) * 1 + 1 * 0 = t.val; omega
    | ⟨1, _⟩ => show win0_1.index t (1 : Fin 3) * 4096 + 1 * s.val = s.val; omega
    | ⟨2, _⟩ => show win0_1.index t (2 : Fin 3) * 128 + 1 * d.val = d.val; omega
  · show V c main_arg4 (((cfg0.win 4).blk t).view.emb (ix2 e d)) = V c main_arg4 (ix2 e d)
    refine congrArg _ (funext fun a => Fin.ext ?_)
    match a with
    | ⟨0, _⟩ => show win0_4.index t (0 : Fin 2) * 128 + 1 * e.val = e.val; omega
    | ⟨1, _⟩ => show win0_4.index t (1 : Fin 2) * 128 + 1 * d.val = d.val; omega
  · show win0_7.index t (0 : Fin 3) * 1 + 1 * (j 0).val = t.val
    have hj : (j 0).val < 1 := (j 0).isLt
    omega
  · show win0_7.index t (1 : Fin 3) * 4096 + 1 * (j 1).val = (j 1).val; omega
  · show win0_7.index t (2 : Fin 3) * 128 + 1 * (j 2).val = (j 2).val; omega

/-- An index of the array is in point `t`'s block iff each coordinate is in the block's range on its axis. -/
theorem mem_blk7 (t : Fin cfg0.N) (i : S4x4096x128.Idx) :
    i ∈ ((cfg0.win 7).blk t).view.set ↔ ∀ a : Fin 3, win0_7.index t a * S1x4096x128.size a ≤ (i a).val ∧ (i a).val < win0_7.index t a * S1x4096x128.size a + S1x4096x128.size a := by
  show i ∈ ((View.whole main_v0_2).slice (win0_7.rect t)).set ↔ _
  rw [View.set_slice_whole, Rect.mem_set_unit]
  exact Iff.rfl

/-- Every index of the array lies in the block of the point of its batch. -/
theorem cover7 (i : S4x4096x128.Idx) :
    ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 128 := (i 2).isLt
  refine ⟨⟨(i 0).val, hi0⟩, flush0_7 _, ?_⟩
  rw [mem_blk7]
  obtain ⟨-, -, -, -, -, -, -, ⟨o0, o1, o2⟩⟩ := idx_facts ⟨(i 0).val, hi0⟩
  have o0' : win0_7.index ⟨(i 0).val, hi0⟩ (0 : Fin 3) = (i 0).val := o0
  intro a
  match a with
  | ⟨0, _⟩ => show win0_7.index ⟨(i 0).val, hi0⟩ (0 : Fin 3) * 1 ≤ (i 0).val ∧ (i 0).val < win0_7.index ⟨(i 0).val, hi0⟩ (0 : Fin 3) * 1 + 1; omega
  | ⟨1, _⟩ => show win0_7.index ⟨(i 0).val, hi0⟩ (1 : Fin 3) * 4096 ≤ (i 1).val ∧ (i 1).val < win0_7.index ⟨(i 0).val, hi0⟩ (1 : Fin 3) * 4096 + 4096; omega
  | ⟨2, _⟩ => show win0_7.index ⟨(i 0).val, hi0⟩ (2 : Fin 3) * 128 ≤ (i 2).val ∧ (i 2).val < win0_7.index ⟨(i 0).val, hi0⟩ (2 : Fin 3) * 128 + 128; omega

/-- After the region the window's array is the projection of the arrays the region found. -/
theorem final7 (c : Dev nD) :
    (dat0 V c).arrAt 7 cfg0.N = proj (V c main_arg0) (V c main_arg4) :=
  (dat0 V c).arrAt_eq_of_cover 7 _ (fun t _ => flushed7_eq V c t) cover7

end Cert.KernelIdeal.Region0

end
-- ==== Proof.Region1.lean ====
/-
  The second region's output array, whole, as a function of what the region finds in its three input arrays.

  The grid has sixteen points, four query tiles for each of four batches: point `t` is batch `t / 4`, tile `t % 4`.
  There the query window's block is rows `[1024 · tile, 1024 · tile + 1024)` of the batch, the key and value
  windows' blocks are the whole batch, and the output window writes back the same rows of the batch as the query
  block. With the body's store read at an entry, what point `t` writes back is its block of the mixing step of the
  whole arrays; the sixteen blocks tile the output array, so after the region the output array IS the mixing step.
-/
import proofs.«151720_j10204842295864_1_alg».proof.Proof.Gen.KernelIdeal.Frame
import proofs.«151720_j10204842295864_1_alg».proof.Proof.Payload
import Idealize.ShloMosaic.Lib.Pipeline.Value

set_option maxRecDepth 16384

noncomputable section

namespace Cert.KernelIdeal.Region1

open Cert.KernelIdeal Cert.KernelIdeal.Gen Cert.LinAttn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the sixteen grid points. -/
theorem idx_facts : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 3) = t.val / 4 ∧ win1_2.index t (1 : Fin 3) = 0 ∧ win1_2.index t (2 : Fin 3) = 0)
    ∧ (win1_3.index t (0 : Fin 3) = t.val / 4 ∧ win1_3.index t (1 : Fin 3) = t.val % 4 ∧ win1_3.index t (2 : Fin 3) = 0) :=
  (by decide +kernel : ∀ t : Fin grid1.N, _)

/-- One stored block against the mixing step of whole arrays: if the query block is rows `o + r` of batch `b` of
    `Q` and the key and value blocks are batch `b` of `K` and `Vv`, the body's nested sum at block entry `j` is the
    mixing step at the array index with batch `b`, position `o` plus `j`'s row, and `j`'s feature. -/
theorem block_eq (Q K Vv : Tok.Idx → EReal)
    (q0 : Vec Ideal S1x1024x128 .bf16) (k0 v0 : Vec Ideal S1x4096x128 .bf16) (b : Fin 4) (o : Nat) (ho : o + 1024 ≤ 4096)
    (hq : ∀ (r : Fin 1024) (d : Fin 128), q0 (ix3 (0 : Fin 1) r d) = Q (ix3 b ⟨o + r.val, by have := r.isLt; omega⟩ d))
    (hk : ∀ (t : Fin 4096) (d : Fin 128), k0 (ix3 (0 : Fin 1) t d) = K (ix3 b t d))
    (hv : ∀ (t : Fin 4096) (e : Fin 128), v0 (ix3 (0 : Fin 1) t e) = Vv (ix3 b t e))
    (j : S1x1024x128.Idx) (i : Tok.Idx)
    (h0 : (i 0).val = b.val) (h1 : (i 1).val = o + (j 1).val) (h2 : (i 2).val = (j 2).val) :
    k1_pay1 (F := Ideal) q0 k0 v0 j = mix Q K Vv i := by
  obtain ⟨u, r, e, rfl⟩ : ∃ (u : Fin 1) (r : Fin 1024) (e : Fin 128), j = ix3 u r e := ⟨j 0, j 1, j 2, eq_ix3 j⟩
  have hi : i = ix3 b ⟨o + r.val, by have := r.isLt; omega⟩ e := by
    funext a; apply Fin.ext
    match a with
    | ⟨0, _⟩ => exact h0
    | ⟨1, _⟩ => exact h1
    | ⟨2, _⟩ => exact h2
  rw [hi, mix_ix3, Body.mixpay_apply]
  unfold mixAt scoreAt
  refine Finset.sum_congr rfl fun t _ => ?_
  rw [hv]
  refine congrArg (· * Vv (ix3 b t e)) (congrArg (· * scale) (Finset.sum_congr rfl fun d _ => ?_))
  rw [hq, hk]

/-! ## Output window 3 -/

/-- What point `t` writes back is its block of the mixing step of the arrays the region finds. -/
theorem flushed3_eq (c : Dev nD) (t : Fin cfg1.N) :
    (dat1 V c).flushed 3 t = ((cfg1.win 3).blk t).view.read (Elt Ideal) (mix (V c main_v0_0) (V c main_v0_1) (V c main_v0_2)) := by
  show (cfg1.win 3).cut (grid1.coords t) ((dat1 V c).after 3 t) = _
  rw [after1_3]
  unfold out1_3
  rw [View.canon_unit_zero hz3]
  simp only [View.ld_unit_zero (S := S1x1024x128) hz3, View.ld_unit_zero (S := S1x4096x128) hz3]
  obtain ⟨⟨a0, a1, a2⟩, ⟨b0, b1, b2⟩, ⟨c0, c1, c2⟩, ⟨o0, o1, o2⟩⟩ := idx_facts t
  have ht : t.val < 16 := t.isLt
  funext j
  show k1_pay1 (iblk1 V c 0 t) (iblk1 V c 1 t) (iblk1 V c 2 t) j
    = mix (V c main_v0_0) (V c main_v0_1) (V c main_v0_2) (((cfg1.win 3).blk t).view.emb j)
  refine block_eq (V c main_v0_0) (V c main_v0_1) (V c main_v0_2) (iblk1 V c 0 t) (iblk1 V c 1 t) (iblk1 V c 2 t)
    ⟨t.val / 4, by omega⟩ (t.val % 4 * 1024) (by omega) (fun r d => ?_) (fun s d => ?_) (fun s e => ?_) j _ ?_ ?_ ?_
  · show V c main_v0_0 (((cfg1.win 0).blk t).view.emb (ix3 (0 : Fin 1) r d)) = V c main_v0_0 (ix3 ⟨t.val / 4, _⟩ ⟨t.val % 4 * 1024 + r.val, _⟩ d)
    refine congrArg _ (funext fun a => Fin.ext ?_)
    match a with
    | ⟨0, _⟩ => show win1_0.index t (0 : Fin 3) * 1 + 1 * 0 = t.val / 4; omega
    | ⟨1, _⟩ => show win1_0.index t (1 : Fin 3) * 1024 + 1 * r.val = t.val % 4 * 1024 + r.val; omega
    | ⟨2, _⟩ => show win1_0.index t (2 : Fin 3) * 128 + 1 * d.val = d.val; omega
  · show V c main_v0_1 (((cfg1.win 1).blk t).view.emb (ix3 (0 : Fin 1) s d)) = V c main_v0_1 (ix3 ⟨t.val / 4, _⟩ s d)
    refine congrArg _ (funext fun a => Fin.ext ?_)
    match a with
    | ⟨0, _⟩ => show win1_1.index t (0 : Fin 3) * 1 + 1 * 0 = t.val / 4; omega
    | ⟨1, _⟩ => show win1_1.index t (1 : Fin 3) * 4096 + 1 * s.val = s.val; omega
    | ⟨2, _⟩ => show win1_1.index t (2 : Fin 3) * 128 + 1 * d.val = d.val; omega
  · show V c main_v0_2 (((cfg1.win 2).blk t).view.emb (ix3 (0 : Fin 1) s e)) = V c main_v0_2 (ix3 ⟨t.val / 4, _⟩ s e)
    refine congrArg _ (funext fun a => Fin.ext ?_)
    match a with
    | ⟨0, _⟩ => show win1_2.index t (0 : Fin 3) * 1 + 1 * 0 = t.val / 4; omega
    | ⟨1, _⟩ => show win1_2.index t (1 : Fin 3) * 4096 + 1 * s.val = s.val; omega
    | ⟨2, _⟩ => show win1_2.index t (2 : Fin 3) * 128 + 1 * e.val = e.val; omega
  · show win1_3.index t (0 : Fin 3) * 1 + 1 * (j 0).val = t.val / 4
    have hj : (j 0).val < 1 := (j 0).isLt
    omega
  · show win1_3.index t (1 : Fin 3) * 1024 + 1 * (j 1).val = t.val % 4 * 1024 + (j 1).val; omega
  · show win1_3.index t (2 : Fin 3) * 128 + 1 * (j 2).val = (j 2).val; omega

/-- An index of the array is in point `t`'s block iff each coordinate is in the block's range on its axis. -/
theorem mem_blk3 (t : Fin cfg1.N) (i : S4x4096x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v1).slice (win1_3.rect t)).set ↔ _
  rw [View.set_slice_whole, Rect.mem_set_unit]
  exact Iff.rfl

/-- Every index of the array lies in the block of the point of its batch and of its row's tile. -/
theorem cover3 (i : S4x4096x128.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 128 := (i 2).isLt
  have hp : (i 0).val * 4 + (i 1).val / 1024 < 16 := by omega
  refine ⟨⟨(i 0).val * 4 + (i 1).val / 1024, hp⟩, flush1_3 _, ?_⟩
  rw [mem_blk3]
  obtain ⟨-, -, -, ⟨o0, o1, o2⟩⟩ := idx_facts ⟨(i 0).val * 4 + (i 1).val / 1024, hp⟩
  have o0' : win1_3.index ⟨(i 0).val * 4 + (i 1).val / 1024, hp⟩ (0 : Fin 3) = ((i 0).val * 4 + (i 1).val / 1024) / 4 := o0
  have o1' : win1_3.index ⟨(i 0).val * 4 + (i 1).val / 1024, hp⟩ (1 : Fin 3) = ((i 0).val * 4 + (i 1).val / 1024) % 4 := o1
  intro a
  match a with
  | ⟨0, _⟩ => show win1_3.index ⟨(i 0).val * 4 + (i 1).val / 1024, hp⟩ (0 : Fin 3) * 1 ≤ (i 0).val ∧ (i 0).val < win1_3.index ⟨(i 0).val * 4 + (i 1).val / 1024, hp⟩ (0 : Fin 3) * 1 + 1; omega
  | ⟨1, _⟩ => show win1_3.index ⟨(i 0).val * 4 + (i 1).val / 1024, hp⟩ (1 : Fin 3) * 1024 ≤ (i 1).val ∧ (i 1).val < win1_3.index ⟨(i 0).val * 4 + (i 1).val / 1024, hp⟩ (1 : Fin 3) * 1024 + 1024; omega
  | ⟨2, _⟩ => show win1_3.index ⟨(i 0).val * 4 + (i 1).val / 1024, hp⟩ (2 : Fin 3) * 128 ≤ (i 2).val ∧ (i 2).val < win1_3.index ⟨(i 0).val * 4 + (i 1).val / 1024, hp⟩ (2 : Fin 3) * 128 + 128; omega

/-- After the region the output array is the mixing step of the arrays the region found. -/
theorem final3 (c : Dev nD) :
    (dat1 V c).arrAt 3 cfg1.N = mix (V c main_v0_0) (V c main_v0_1) (V c main_v0_2) :=
  (dat1 V c).arrAt_eq_of_cover 3 _ (fun t _ => flushed3_eq V c t) cover3

end Cert.KernelIdeal.Region1

end
-- ==== Proof.KernelValue.lean ====
/-
  The kernel program's result, as the layer of the specification.

  Between the two regions nothing runs on the host, so the second region finds in its three input arrays exactly
  what the first region's write-backs left there: the three projections of the launch arrays. The second region's
  output array is the mixing step of what it finds, hence the layer of the five launch arrays. The run of the two
  regions is then re-posted with that value at the result buffer.
-/
import proofs.«151720_j10204842295864_1_alg».proof.Proof.KernelRun
import proofs.«151720_j10204842295864_1_alg».proof.Proof.Region0
import proofs.«151720_j10204842295864_1_alg».proof.Proof.Region1

set_option maxRecDepth 16384

noncomputable section

namespace Cert.KernelIdeal.Whole

open Cert.KernelIdeal Cert.KernelIdeal.Gen Cert.LinAttn
open Idealize.ShloMosaic Idealize.ShloMosaic.TcCoe Idealize.SL.Sem

variable (m : (ℓ : Loc nD τ sig) → Buf (Elt Ideal) ℓ) (ρ : Dev nD → PrngReg)

/-- The queries, keys and values the second region finds are the projections of the launch arrays. -/
theorem q_eq (c : Dev nD) :
    V1 m ρ c main_v0_0 = proj (m ((c.tc : Thread nD τ).loc main_arg1)) (m ((c.tc : Thread nD τ).loc main_arg2)) :=
  (W1_arr m ρ c 5).trans (Region0.final5 (V0 m ρ) c)
theorem k_eq (c : Dev nD) :
    V1 m ρ c main_v0_1 = proj (m ((c.tc : Thread nD τ).loc main_arg0)) (m ((c.tc : Thread nD τ).loc main_arg3)) :=
  (W1_arr m ρ c 6).trans (Region0.final6 (V0 m ρ) c)
theorem v_eq (c : Dev nD) :
    V1 m ρ c main_v0_2 = proj (m ((c.tc : Thread nD τ).loc main_arg0)) (m ((c.tc : Thread nD τ).loc main_arg4)) :=
  (W1_arr m ρ c 7).trans (Region0.final7 (V0 m ρ) c)

/-- The result buffer after both regions holds the layer of the launch arrays. -/
theorem result_eq (c : Dev nD) :
    W2 m ρ c (Proc.devRef .tc main_v1)
      = layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W2_arr m ρ c 3).trans ?_
  refine (Region1.final3 (V1 m ρ) c).trans ?_
  rw [q_eq, k_eq, v_eq]
  rfl

/-- Every weakly fair execution ends with the result buffer at the layer of the launch arrays and the arguments as launched. -/
theorem run : θ_run defs (onTc (τ := τ) (main (F := Ideal))) ⟨m, fun _ => 0, ρ⟩ (fun r => ∀ c : Dev nD,
      r.2.mem ((c.tc : Thread nD τ).loc main_v1)
        = layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.Named.run m ρ)

end Cert.KernelIdeal.Whole

end
-- ==== Proof.RefValue.lean ====
/-
  The reference's result is the layer of the specification.

  The reference computes three projections by contracting the feature axis of a token array with the second axis
  of a weight matrix, the scores by contracting the feature axes of queries and keys batch by batch, scales them by
  a broadcast constant, and contracts the key-position axis with the values. Read one operation at a time at an
  index, each contraction is the sum the specification writes, with the same factors in the same order; the only
  work is identifying the operand indices with the specification's coordinates.
-/
import proofs.«151720_j10204842295864_1_alg».proof.Proof.Gen.ReferenceIdeal.Run
import proofs.«151720_j10204842295864_1_alg».proof.Proof.Gen.ReferenceIdeal.Read
import proofs.«151720_j10204842295864_1_alg».proof.Proof.Spec

noncomputable section

namespace Cert.ReferenceIdeal.RefValue

open Cert.ReferenceIdeal Cert.ReferenceIdeal.Gen Cert.ReferenceIdeal.Read Cert.LinAttn
open Idealize.ShloMosaic Idealize.ShloMosaic.ValueIdx

/-- A token array and a weight matrix, as the reference's operations take them. -/
abbrev TokV := (⟨S4x4096x128, .f32⟩ : BufTy).Contents (Elt Ideal)
abbrev WgtV := (⟨S128x128, .f32⟩ : BufTy).Contents (Elt Ideal)

/-- The operand indices of a projection's contraction, in coordinates. -/
theorem lidx0 (b : Fin 4) (s : Fin 4096) (e d : Fin 128) : lidx_main_v0 (ix3 b s e) d = ix3 b s d :=
  funext fun a => by match a with | ⟨0, _⟩ => rfl | ⟨1, _⟩ => rfl | ⟨2, _⟩ => rfl
theorem ridx0 (b : Fin 4) (s : Fin 4096) (e d : Fin 128) : ridx_main_v0 (ix3 b s e) d = ix2 e d :=
  funext fun a => by match a with | ⟨0, _⟩ => rfl | ⟨1, _⟩ => rfl

/-- Each of the three host projections is the specification's. -/
theorem v0_eq (x : TokV) (w : WgtV) : val_main_v0 (F := Ideal) x w = proj x w := by
  funext i
  obtain ⟨b, s, e, rfl⟩ : ∃ (b : Fin 4) (s : Fin 4096) (e : Fin 128), i = ix3 b s e := ⟨i 0, i 1, i 2, eq_ix3 i⟩
  rw [val_main_v0_apply, proj_ix3]
  unfold projAt
  exact Finset.sum_congr rfl fun d _ => by rw [lidx0, ridx0]
theorem v1_eq (x : TokV) (w : WgtV) : val_main_v1 (F := Ideal) x w = proj x w := v0_eq x w
theorem v2_eq (x : TokV) (w : WgtV) : val_main_v2 (F := Ideal) x w = proj x w := v0_eq x w

/-- The operand indices of the score contraction and of the last contraction, in coordinates. -/
theorem lidx3 (b : Fin 4) (s t : Fin 4096) (d : Fin 128) : lidx_main_v3 (ix3 b s t) d = ix3 b s d :=
  funext fun a => by match a with | ⟨0, _⟩ => rfl | ⟨1, _⟩ => rfl | ⟨2, _⟩ => rfl
theorem ridx3 (b : Fin 4) (s t : Fin 4096) (d : Fin 128) : ridx_main_v3 (ix3 b s t) d = ix3 b t d :=
  funext fun a => by match a with | ⟨0, _⟩ => rfl | ⟨1, _⟩ => rfl | ⟨2, _⟩ => rfl
theorem lidx6 (b : Fin 4) (s t : Fin 4096) (e : Fin 128) : lidx_main_v6 (ix3 b s e) t = ix3 b s t :=
  funext fun a => by match a with | ⟨0, _⟩ => rfl | ⟨1, _⟩ => rfl | ⟨2, _⟩ => rfl
theorem ridx6 (b : Fin 4) (s t : Fin 4096) (e : Fin 128) : ridx_main_v6 (ix3 b s e) t = ix3 b t e :=
  funext fun a => by match a with | ⟨0, _⟩ => rfl | ⟨1, _⟩ => rfl | ⟨2, _⟩ => rfl

/-- The scaled scores at `(b, s, t)`. -/
theorem v5_apply (ctx x : TokV) (wq wk : WgtV) (b : Fin 4) (s t : Fin 4096) :
    val_main_v5 (F := Ideal) ctx x wq wk (ix3 b s t) = scoreAt (proj x wq) (proj ctx wk) b s t := by
  rw [val_main_v5_apply, val_main_v3_apply, val_main_v4_apply, val_main_cst_apply, v0_eq, v1_eq]
  unfold scoreAt
  show (∑ d : Fin 128, proj x wq (lidx_main_v3 (ix3 b s t) d) * proj ctx wk (ridx_main_v3 (ix3 b s t) d)) * scale = _
  refine congrArg (· * scale) (Finset.sum_congr rfl fun d _ => ?_)
  rw [lidx3, ridx3]

/-- The reference's result array is the layer of its five arguments. -/
theorem result_eq (ctx x : TokV) (wq wk wv : WgtV) :
    val_main_v6 (F := Ideal) ctx x wq wk wv = layer ctx x wq wk wv := by
  funext i
  obtain ⟨b, s, e, rfl⟩ : ∃ (b : Fin 4) (s : Fin 4096) (e : Fin 128), i = ix3 b s e := ⟨i 0, i 1, i 2, eq_ix3 i⟩
  rw [val_main_v6_apply, v2_eq]
  unfold layer
  rw [mix_ix3]
  unfold mixAt
  refine Finset.sum_congr rfl fun t _ => ?_
  rw [lidx6, ridx6, v5_apply]

end Cert.ReferenceIdeal.RefValue

end
-- ==== Proof.lean ====
/-
  A layer of linear attention, in two kernels against five einsums: the certificate.

  Both programs take a context array and a token array (4 batches, 4096 positions, 128 features) and three
  128 × 128 weight matrices. Queries are the tokens projected by the first matrix, keys and values the context
  projected by the other two; the score of a query position against a key position is the inner product of their
  feature rows times one fixed scale, and the result is the scores times the values, with no normalisation.

  The kernel program does the three projections in a first kernel, one batch per grid point, and the two
  chained products in a second, a tile of 1024 query positions of one batch per grid point with that batch's keys
  and values whole. The reference does the same five contractions on whole arrays. At the ideal values a change of
  float format is the identity and a product into a zero accumulator is the plain sum, so index by index both
  results are the same nested sum, with the same factors in the same order (module Spec): the value claim needs no
  algebraic law beyond reading each contraction as its sum, and never opens the precondition.

  The kernel's side: each body's store read at an entry (Payload), each region's output arrays whole (Region0,
  Region1), the two regions' run with the result named (KernelRun) and valued (KernelValue). The reference's side:
  its run, read one operation at a time (RefValue). The idealization rewrote nothing, so the kernel program read
  at the ideal values is its own idealization.
-/
import proofs.«151720_j10204842295864_1_alg».proof.Defs
import proofs.«151720_j10204842295864_1_alg».proof.Proof.Gen.Kernel
import proofs.«151720_j10204842295864_1_alg».proof.Proof.Gen.Kernel.Frame
import proofs.«151720_j10204842295864_1_alg».proof.Proof.Gen.KernelIdeal
import proofs.«151720_j10204842295864_1_alg».proof.Proof.Gen.KernelIdeal.Frame
import proofs.«151720_j10204842295864_1_alg».proof.Proof.Gen.ReferenceIdeal
import proofs.«151720_j10204842295864_1_alg».proof.Proof.Gen.ReferenceIdeal.Run
import proofs.«151720_j10204842295864_1_alg».proof.Proof.Gen.ReferenceIdeal.Read
import proofs.«151720_j10204842295864_1_alg».proof.Proof.Gen.Pre_finite_inputs
import proofs.«151720_j10204842295864_1_alg».proof.Proof.KernelValue
import proofs.«151720_j10204842295864_1_alg».proof.Proof.RefValue
import Idealize.ShloMosaic.Adequacy
import Idealize.ShloMosaic.Init

noncomputable section

namespace Cert.Proof

open Idealize.ShloMosaic Idealize.ShloMosaic.TcCoe Idealize.SL.Sem

/-- The three programs run, fault nowhere and keep their arguments. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer of those arguments in their
    result buffers: the kernel program by its two regions' values, the reference by its operations read in turn. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
